-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩

class Facts : Prop where
  bcast_S_S64x196x768 : S_.BroadcastsInDim S64x196x768 (![] : Fin 0 → Fin S64x196x768.rank)
  reducesTo_S64x196x768_S_d0_1_2 : S64x196x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  reducesTo_S1_S_d0 : S1.ReducesTo [0] S_
  shapeCasts_S1_S_ : S1.ShapeCasts S_

variable [Facts]

def fn_part2 {F : FTy → Type} [FloatOps F] (main_arg5 : FVec F S1 .f32) (main_v32 : IVec S_ 1) (main_v33 : FVec F S768x3072 .f32) : IVec S_ 1 :=
  let main_cst_12 : FVec F S_ .f32 := constant S_ .f32 0xFF800000#32
  let main_v34 : FVec F S_ .f32 := (fun x v => Host.reduce FloatOps.maximumf x v reducesTo_S768x3072_S_d0_1 h_S_) main_v33 main_cst_12
  let main_cst_13 : FVec F S_ .f32 := constant S_ .f32 0x00000000#32
  let main_v35 : IVec S_ 1 := cmpf .ogt main_v34 main_cst_13
  let main_v36 : IVec S_ 1 := andi main_v32 main_v35
  let main_v37 : FVec F S_ .f32 := shapeCast S_ main_arg5 shapeCasts_S1_S_
  let main_cst_14 : FVec F S_ .f32 := constant S_ .f32 0x00000000#32
  let main_v38 : IVec S_ 1 := cmpf .une main_v37 main_cst_14
  let main_v39 : IVec S_ 1 := andi main_v36 main_v38
  main_v39

def fn_part1 {F : FTy → Type} [FloatOps F] (main_arg1 : FVec F S3072x768 .f32) (main_arg3 : FVec F S768x3072 .f32) (main_arg4 : FVec F S768 .f32) (main_arg5 : FVec F S1 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S3072x768 .f32 := Host.absf main_arg1
  let main_cst_10 : FVec F S_ .f32 := constant S_ .f32 0xFF800000#32
  let main_v30 : FVec F S_ .f32 := (fun x v => Host.reduce FloatOps.maximumf x v reducesTo_S3072x768_S_d0_1 h_S_) main_v29 main_cst_10
  let main_cst_11 : FVec F S_ .f32 := constant S_ .f32 0x00000000#32
  let main_v31 : IVec S_ 1 := cmpf .ogt main_v30 main_cst_11
  let main_v32 : IVec S_ 1 := andi main_v28 main_v31
  let main_v33 : FVec F S768x3072 .f32 := Host.absf main_arg3
  fn_part2 (F := F) main_arg5 main_v32 main_v33

def fn {F : FTy → Type} [FloatOps F] (main_arg0 : FVec F S64x196x768 .f32) (main_arg1 : FVec F S3072x768 .f32) (main_arg2 : FVec F S3072 .f32) (main_arg3 : FVec F S768x3072 .f32) (main_arg4 : FVec F S768 .f32) (main_arg5 : FVec F S1 .f32) : IVec S_ 1 :=
  let main_v0 : FVec F S64x196x768 .f32 := Host.absf main_arg0
  let main_cst : FVec F S_ .f32 := constant S_ .f32 0x7F800000#32
  let main_v1 : FVec F S64x196x768 .f32 := broadcastInDim S64x196x768 ![] bcast_S_S64x196x768 main_cst
  let main_v2 : IVec S64x196x768 1 := cmpf .olt main_v0 main_v1
  let main_c : IVec S_ 1 := constantI S_ 1 1#1
  let main_v3 : IVec S_ 1 := (fun x v => Host.reduce IntOp.andi x v reducesTo_S64x196x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg1 main_arg3 main_arg4 main_arg5 main_v13 main_v16
-- ==== Kernel.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩
abbrev S12544x768 : Shape := ⟨2, ![12544, 768]⟩
abbrev S1x3072 : Shape := ⟨2, ![1, 3072]⟩
abbrev S1x768 : Shape := ⟨2, ![1, 768]⟩
abbrev S448x768 : Shape := ⟨2, ![448, 768]⟩
abbrev S448x3072 : Shape := ⟨2, ![448, 3072]⟩

abbrev nBuf : Space → Nat
  | .hbm => 72
  | .vmem => 8
  | .smem => 0
  | _ => 0

abbrev bufTy : (tb : Table) → Fin (tcTables nBuf tb) → BufTy
  | .hbm, ⟨0, _⟩ => ⟨S64x196x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1, .f32⟩
  | .hbm, ⟨6, _⟩ => ⟨S_, .f32⟩
  | .hbm, ⟨7, _⟩ => ⟨S3072x768, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3072x768, .f32⟩
  | .hbm, ⟨13, _⟩ => ⟨S3072x768, .f32⟩
  | .hbm, ⟨14, _⟩ => ⟨S3072x768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S3072x768, .f32⟩
  | .hbm, ⟨19, _⟩ => ⟨S3072x768, .f32⟩
  | .hbm, ⟨20, _⟩ => ⟨S_, .f32⟩
  | .hbm, ⟨21, _⟩ => ⟨S3072x768, .f32⟩
  | .hbm, ⟨22, _⟩ => ⟨S3072x768, .f32⟩
  | .hbm, ⟨23, _⟩ => ⟨S_, .f32⟩
  | .hbm, ⟨24, _⟩ => ⟨S3072, .f32⟩
  | .hbm, ⟨25, _⟩ => ⟨S3072, .f32⟩
  | .hbm, ⟨26, _⟩ => ⟨S3072, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S3072, .f32⟩
  | .hbm, ⟨31, _⟩ => ⟨S3072, .f32⟩
  | .hbm, ⟨32, _⟩ => ⟨S_, .f32⟩
  | .hbm, ⟨33, _⟩ => ⟨S3072, .f32⟩
  | .hbm, ⟨34, _⟩ => ⟨S3072, .f32⟩
  | .hbm, ⟨35, _⟩ => ⟨S_, .f32⟩
  | .hbm, ⟨36, _⟩ => ⟨S768x3072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S768x3072, .f32⟩
  | .hbm, ⟨42, _⟩ => ⟨S768x3072, .f32⟩
  | .hbm, ⟨43, _⟩ => ⟨S768x3072, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S768x3072, .f32⟩
  | .hbm, ⟨48, _⟩ => ⟨S768x3072, .f32⟩
  | .hbm, ⟨49, _⟩ => ⟨S_, .f32⟩
  | .hbm, ⟨50, _⟩ => ⟨S768x3072, .f32⟩
  | .hbm, ⟨51, _⟩ => ⟨S768x3072, .f32⟩
  | .hbm, ⟨52, _⟩ => ⟨S_, .f32⟩
  | .hbm, ⟨53, _⟩ => ⟨S768, .f32⟩
  | .hbm, ⟨54, _⟩ => ⟨S768, .f32⟩
  | .hbm, ⟨55, _⟩ => ⟨S768, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S768, .f32⟩
  | .hbm, ⟨60, _⟩ => ⟨S768, .f32⟩
  | .hbm, ⟨61, _⟩ => ⟨S_, .f32⟩
  | .hbm, ⟨62, _⟩ => ⟨S768, .f32⟩
  | .hbm, ⟨63, _⟩ => ⟨S768, .f32⟩
  | .hbm, ⟨64, _⟩ => ⟨S_, .f32⟩
  | .hbm, ⟨65, _⟩ => ⟨S12544x768, .f32⟩
  | .hbm, ⟨66, _⟩ => ⟨S3072x768, .bf16⟩
  | .hbm, ⟨67, _⟩ => ⟨S768x3072, .bf16⟩
  | .hbm, ⟨68, _⟩ => ⟨S1x3072, .f32⟩
  | .hbm, ⟨69, _⟩ => ⟨S1x768, .f32⟩
  | .hbm, ⟨70, _⟩ => ⟨S12544x768, .f32⟩
  | .hbm, ⟨71, _⟩ => ⟨S64x196x768, .f32⟩
  | .local _ .vmem, ⟨0, _⟩ => ⟨S448x768, .f32⟩
  | .local _ .vmem, ⟨1, _⟩ => ⟨S448x768, .f32⟩
  | .local _ .vmem, ⟨2, _⟩ => ⟨S3072x768, .bf16⟩
  | .local _ .vmem, ⟨3, _⟩ => ⟨S1x3072, .f32⟩
  | .local _ .vmem, ⟨4, _⟩ => ⟨S768x3072, .bf16⟩
  | .local _ .vmem, ⟨5, _⟩ => ⟨S1x768, .f32⟩
  | .local _ .vmem, ⟨6, _⟩ => ⟨S448x768, .f32⟩
  | .local _ .vmem, ⟨7, _⟩ => ⟨S448x768, .f32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_9 : Ref sig .tc := ⟨.hbm, 56, rfl⟩
abbrev main_cst_10 : Ref sig .tc := ⟨.hbm, 57, rfl⟩
abbrev main_call7_v0 : Ref sig .tc := ⟨.hbm, 58, rfl⟩
abbrev main_call7_v1 : Ref sig .tc := ⟨.hbm, 59, rfl⟩
abbrev main_call7_v2 : Ref sig .tc := ⟨.hbm, 60, rfl⟩
abbrev main_call7_v3 : Ref sig .tc := ⟨.hbm, 61, rfl⟩
abbrev main_call7_v4 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S448x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1_S_ : S1.ShapeCasts S_
  reducesTo_S3072x768_S_d0_1 : S3072x768.ReducesTo [0, 1] S_
  h_S_ : 0 < S_.numel
  bcast_S_S3072x768 : S_.BroadcastsInDim S3072x768 (![] : Fin 0 → Fin S3072x768.rank)
  bcast_S_S3072 : S_.BroadcastsInDim S3072 (![] : Fin 0 → Fin S3072.rank)
  reducesTo_S768x3072_S_d0_1 : S768x3072.ReducesTo [0, 1] S_
  bcast_S_S768x3072 : S_.BroadcastsInDim S768x3072 (![] : Fin 0 → Fin S768x3072.rank)
  bcast_S_S768 : S_.BroadcastsInDim S768 (![] : Fin 0 → Fin S768.rank)
  shapeCasts_S64x196x768_S12544x768 : S64x196x768.ShapeCasts S12544x768
  bitsLt_bf16_f32 : FTy.bits .bf16 < FTy.bits .f32
  shapeCasts_S3072_S1x3072 : S3072.ShapeCasts S1x3072
  shapeCasts_S768_S1x768 : S768.ShapeCasts S1x768
  inb_S448x768_S448x768_0_0 : ∀ a, (![0, 0] : Fin 2 → Nat) a + S448x768.size a ≤ S448x768.size a
  h_S448x768 : 0 < S448x768.numel
  shapeCasts_S448x768_S448x768 : S448x768.ShapeCasts S448x768
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S448x3072 : S1x3072.Broadcasts S448x3072
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S448x768 : S1x768.Broadcasts S448x768
  shapeCasts_S12544x768_S64x196x768 : S12544x768.ShapeCasts S64x196x768
  dot_S448x768_S3072x768_S448x3072_1_1_0_0_n_n_wf : DotDims.WF S448x768 S3072x768 S448x3072 [1] [1] [0] [0] [] []
  dot_S448x3072_S768x3072_S448x768_1_1_0_0_n_n_wf : DotDims.WF S448x3072 S768x3072 S448x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S448x768.size a ≤ S12544x768.size a
  hwx0_0 : ∀ i : grid0.Coords, EltTy.bits .f32 = 32 ∨ (Rect.block (s := S12544x768) S448x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x768.size a ≤ S3072x768.size a
  hwx0_1 : ∀ i : grid0.Coords, EltTy.bits .bf16 = 32 ∨ (Rect.block (s := S3072x768) S3072x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .bf16 = 32 ∨ (Rect.block (s := S768x3072) S768x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S448x768.size a ≤ S12544x768.size a
  hwx0_5 : ∀ i : grid0.Coords, EltTy.bits .f32 = 32 ∨ (Rect.block (s := S12544x768) S448x768.size (cc0_transform_5 i) (hinb0_5 i)).WholeWords (EltTy.packing .f32)

variable [Facts₀]

def dot_S448x768_S3072x768_S448x3072_1_1_0_0_n_n : DotDims S448x768 S3072x768 S448x3072 where
  lhsContracting := [1]
  rhsContracting := [1]
  lhsNonContracting := [0]
  rhsNonContracting := [0]
  lhsBatch := []
  rhsBatch := []
  wf := dot_S448x768_S3072x768_S448x3072_1_1_0_0_n_n_wf
def dot_S448x3072_S768x3072_S448x768_1_1_0_0_n_n : DotDims S448x3072 S768x3072 S448x768 where
  lhsContracting := [1]
  rhsContracting := [1]
  lhsNonContracting := [0]
  rhsNonContracting := [0]
  lhsBatch := []
  rhsBatch := []
  wf := dot_S448x3072_S768x3072_S448x768_1_1_0_0_n_n_wf

abbrev win0_0 : Pipeline.Window sig grid0 :=
  Pipeline.Window.ofSpec (Memref.whole main_v27) S448x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S3072x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S448x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩
abbrev S64x196x3072 : Shape := ⟨3, ![64, 196, 3072]⟩
abbrev S1x1x3072 : Shape := ⟨3, ![1, 1, 3072]⟩
abbrev S1x1x768 : Shape := ⟨3, ![1, 1, 768]⟩

abbrev nBuf : Space → Nat
  | .hbm => 84
  | .vmem => 0
  | .smem => 0
  | _ => 0

abbrev bufTy : (tb : Table) → Fin (tcTables nBuf tb) → BufTy
  | .hbm, ⟨0, _⟩ => ⟨S64x196x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1, .f32⟩
  | .hbm, ⟨6, _⟩ => ⟨S_, .f32⟩
  | .hbm, ⟨7, _⟩ => ⟨S3072x768, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3072x768, .f32⟩
  | .hbm, ⟨13, _⟩ => ⟨S3072x768, .f32⟩
  | .hbm, ⟨14, _⟩ => ⟨S3072x768, .f32⟩
  | .hbm, ⟨15, _⟩ => ⟨S3072x768, .f32⟩
  | .hbm, ⟨16, _⟩ => ⟨S3072x768, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S3072x768, .f32⟩
  | .hbm, ⟨21, _⟩ => ⟨S3072x768, .f32⟩
  | .hbm, ⟨22, _⟩ => ⟨S_, .f32⟩
  | .hbm, ⟨23, _⟩ => ⟨S3072x768, .f32⟩
  | .hbm, ⟨24, _⟩ => ⟨S3072x768, .f32⟩
  | .hbm, ⟨25, _⟩ => ⟨S_, .f32⟩
  | .hbm, ⟨26, _⟩ => ⟨S3072, .f32⟩
  | .hbm, ⟨27, _⟩ => ⟨S3072, .f32⟩
  | .hbm, ⟨28, _⟩ => ⟨S3072, .f32⟩
  | .hbm, ⟨29, _⟩ => ⟨S3072, .f32⟩
  | .hbm, ⟨30, _⟩ => ⟨S3072, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3072, .f32⟩
  | .hbm, ⟨35, _⟩ => ⟨S3072, .f32⟩
  | .hbm, ⟨36, _⟩ => ⟨S_, .f32⟩
  | .hbm, ⟨37, _⟩ => ⟨S3072, .f32⟩
  | .hbm, ⟨38, _⟩ => ⟨S3072, .f32⟩
  | .hbm, ⟨39, _⟩ => ⟨S64x196x3072, .f32⟩
  | .hbm, ⟨40, _⟩ => ⟨S1x1x3072, .f32⟩
  | .hbm, ⟨41, _⟩ => ⟨S64x196x3072, .f32⟩
  | .hbm, ⟨42, _⟩ => ⟨S64x196x3072, .f32⟩
  | .hbm, ⟨43, _⟩ => ⟨S_, .f32⟩
  | .hbm, ⟨44, _⟩ => ⟨S768x3072, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S768x3072, .f32⟩
  | .hbm, ⟨50, _⟩ => ⟨S768x3072, .f32⟩
  | .hbm, ⟨51, _⟩ => ⟨S768x3072, .f32⟩
  | .hbm, ⟨52, _⟩ => ⟨S768x3072, .f32⟩
  | .hbm, ⟨53, _⟩ => ⟨S768x3072, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S768x3072, .f32⟩
  | .hbm, ⟨58, _⟩ => ⟨S768x3072, .f32⟩
  | .hbm, ⟨59, _⟩ => ⟨S_, .f32⟩
  | .hbm, ⟨60, _⟩ => ⟨S768x3072, .f32⟩
  | .hbm, ⟨61, _⟩ => ⟨S768x3072, .f32⟩
  | .hbm, ⟨62, _⟩ => ⟨S_, .f32⟩
  | .hbm, ⟨63, _⟩ => ⟨S768, .f32⟩
  | .hbm, ⟨64, _⟩ => ⟨S768, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S768, .f32⟩
  | .hbm, ⟨72, _⟩ => ⟨S768, .f32⟩
  | .hbm, ⟨73, _⟩ => ⟨S_, .f32⟩
  | .hbm, ⟨74, _⟩ => ⟨S768, .f32⟩
  | .hbm, ⟨75, _⟩ => ⟨S768, .f32⟩
  | .hbm, ⟨76, _⟩ => ⟨S64x196x768, .f32⟩
  | .hbm, ⟨77, _⟩ => ⟨S1x1x768, .f32⟩
  | .hbm, ⟨78, _⟩ => ⟨S64x196x768, .f32⟩
  | .hbm, ⟨79, _⟩ => ⟨S64x196x768, .f32⟩
  | .hbm, ⟨80, _⟩ => ⟨S_, .f32⟩
  | .hbm, ⟨81, _⟩ => ⟨S64x196x768, .f32⟩
  | .hbm, ⟨82, _⟩ => ⟨S64x196x768, .f32⟩
  | .hbm, ⟨83, _⟩ => ⟨S_, .f32⟩
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_cst_4 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_cst_8 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_9 : Ref sig .tc := ⟨.hbm, 68, rfl⟩
abbrev main_cst_10 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call8_cst : Ref sig .tc := ⟨.hbm, 80, rfl⟩
abbrev main_call8_v0 : Ref sig .tc := ⟨.hbm, 81, rfl⟩
abbrev main_v42 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  shapeCasts_S1_S_ : S1.ShapeCasts S_
  reducesTo_S3072x768_S_d0_1 : S3072x768.ReducesTo [0, 1] S_
  h_S_ : 0 < S_.numel
  bcast_S_S3072x768 : S_.BroadcastsInDim S3072x768 (![] : Fin 0 → Fin S3072x768.rank)
  bcast_S_S3072 : S_.BroadcastsInDim S3072 (![] : Fin 0 → Fin S3072.rank)
  bcast_S3072_S1x1x3072_2 : S3072.BroadcastsInDim S1x1x3072 (![2] : Fin 1 → Fin S1x1x3072.rank)
  bcast_S1x1x3072_S64x196x3072_0_1_2 : S1x1x3072.BroadcastsInDim S64x196x3072 (![0, 1, 2] : Fin 3 → Fin S64x196x3072.rank)
  reducesTo_S768x3072_S_d0_1 : S768x3072.ReducesTo [0, 1] S_
  bcast_S_S768x3072 : S_.BroadcastsInDim S768x3072 (![] : Fin 0 → Fin S768x3072.rank)
  bcast_S_S768 : S_.BroadcastsInDim S768 (![] : Fin 0 → Fin S768.rank)
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S_S64x196x768 : S_.BroadcastsInDim S64x196x768 (![] : Fin 0 → Fin S64x196x768.rank)
  dot_S64x196x768_S3072x768_S64x196x3072_2_1_01_0_n_n_wf : DotDims.WF S64x196x768 S3072x768 S64x196x3072 [2] [1] [0, 1] [0] [] []
  dot_S64x196x3072_S768x3072_S64x196x768_2_1_01_0_n_n_wf : DotDims.WF S64x196x3072 S768x3072 S64x196x768 [2] [1] [0, 1] [0] [] []

variable [Facts₀]

def dot_S64x196x768_S3072x768_S64x196x3072_2_1_01_0_n_n : DotDims S64x196x768 S3072x768 S64x196x3072 where
  lhsContracting := [2]
  rhsContracting := [1]
  lhsNonContracting := [0, 1]
  rhsNonContracting := [0]
  lhsBatch := []
  rhsBatch := []
  wf := dot_S64x196x768_S3072x768_S64x196x3072_2_1_01_0_n_n_wf
def dot_S64x196x3072_S768x3072_S64x196x768_2_1_01_0_n_n : DotDims S64x196x3072 S768x3072 S64x196x768 where
  lhsContracting := [2]
  rhsContracting := [1]
  lhsNonContracting := [0, 1]
  rhsNonContracting := [0]
  lhsBatch := []
  rhsBatch := []
  wf := dot_S64x196x3072_S768x3072_S64x196x768_2_1_01_0_n_n_wf

class Facts : Prop extends Facts₀ where

variable [Facts]
-- ==== Proof.Quant.lean ====
/-
  Per-tensor symmetric quantization, as both programs print it.

  A tensor `a` is divided by a scalar step `d` (broadcast), rounded to the nearest integer (ties to even) and
  clipped to `[lo, hi]`. The kernel rounds directly, `clip (round (a / d))`; the reference rounds
  "straight through": with `v = a / d` it clips `v + (round v - v)`. On the extended reals the two agree
  wherever `v` is a real number, since then `v + (n - v) = n` for the integer `n = round v`; and `v` is a real
  number as soon as `a` is one and `d ≠ 0` (for an infinite `d` the quotient is `a · 0 = 0`).

  The weight step is `max |w| / 127`; it is nonzero when `max |w|` is, and products of nonzero extended reals
  are nonzero.
-/
import Idealize.ShloMosaic.PureOps.Ideal
import Idealize.ShloMosaic.PureOps.Ideal.Laws
import Idealize.ShloMosaic.Lib.ValueIdx

noncomputable section

namespace Cert.Quant

open Idealize.ShloMosaic

abbrev S0 : Shape := ⟨0, ![]⟩

variable {s : Shape}

/-! ## Scalars -/

/-- The quotient of a real number by a nonzero extended real is a real number. -/
theorem div_real (r : ℝ) {y : EReal} (hy : y ≠ 0) : ∃ q : ℝ, Ideal.div (r : EReal) y = (q : EReal) := by
  rw [Ideal.div, if_neg hy]
  induction y using EReal.rec with
  | bot => exact ⟨0, by simp⟩
  | top => exact ⟨0, by simp⟩
  | coe t => exact ⟨r * t⁻¹, by rw [← EReal.coe_inv, ← EReal.coe_mul]⟩

/-- Straight-through rounding of a real number is its rounding. -/
theorem ste_real (q : ℝ) :
    (q : EReal) + (Ideal.liftRound Ideal.roundHalfEven (q : EReal) - (q : EReal))
      = Ideal.liftRound Ideal.roundHalfEven (q : EReal) := by
  rw [Ideal.liftRound_coe, ← EReal.coe_sub, ← EReal.coe_add]
  congr 1; ring

/-- `127.0` denotes the real number 127. -/
theorem ofBits_127 : Ideal.ofBits .f32 0x42FE0000#32 = ((127 : ℝ) : EReal) := by
  simp [Ideal.ofBits, Ideal.ieee, -EReal.coe_mul]; norm_num

/-- `0.0` denotes zero. -/
theorem ofBits_zero : Ideal.ofBits .f32 0x00000000#32 = 0 := by
  simp [Ideal.ofBits, Ideal.ieee]

/-- A nonzero extended real divided by 127 is nonzero. -/
theorem div_127_ne_zero {x : EReal} (hx : x ≠ 0) : Ideal.div x (Ideal.ofBits .f32 0x42FE0000#32) ≠ 0 := by
  rw [ofBits_127, Ideal.div_coe (by norm_num : (127 : ℝ) ≠ 0)]
  exact mul_ne_zero hx (by exact_mod_cast (by norm_num : (1 / 127 : ℝ) ≠ 0))

/-- An extended real that compares above `0.0` is not zero. -/
theorem ne_zero_of_ogt {x : EReal}
    (h : FloatOps.cmpf (F := Ideal) (φ := .f32) .ogt x (Ideal.ofBits .f32 0x00000000#32) = 1#1) : x ≠ 0 := by
  rintro rfl
  have h' : Ideal.cmp .ogt (0 : EReal) (Ideal.ofBits .f32 0x00000000#32) = 1#1 := h
  rw [ofBits_zero] at h'
  revert h'; simp [Ideal.cmp]

/-- An extended real that compares unequal to `0.0` is not zero. -/
theorem ne_zero_of_une {x : EReal}
    (h : FloatOps.cmpf (F := Ideal) (φ := .f32) .une x (Ideal.ofBits .f32 0x00000000#32) = 1#1) : x ≠ 0 := by
  rintro rfl
  have h' : Ideal.cmp .une (0 : EReal) (Ideal.ofBits .f32 0x00000000#32) = 1#1 := h
  rw [ofBits_zero] at h'
  revert h'; simp [Ideal.cmp]

/-! ## Tensors -/

/-- `jnp.clip(v, lo, hi)` as printed: the minimum of the broadcast `hi` and the maximum of the broadcast `lo` and `v`. -/
def clip (hb : S0.BroadcastsInDim s (![] : Fin 0 → Fin s.rank)) (lo hi : BitVec 32) (v : FVec Ideal s .f32) :
    FVec Ideal s .f32 :=
  minimumf (broadcastInDim s ![] hb (constant S0 .f32 hi)) (maximumf (broadcastInDim s ![] hb (constant S0 .f32 lo)) v)

/-- `a / d` with the scalar `d` broadcast. -/
def quotient (hb : S0.BroadcastsInDim s (![] : Fin 0 → Fin s.rank)) (a : FVec Ideal s .f32) (d : FVec Ideal S0 .f32) :
    FVec Ideal s .f32 :=
  Host.divf a (broadcastInDim s ![] hb d)

/-- The kernel's quantizer: `clip (round (a / d))`. -/
def quantK (hb : S0.BroadcastsInDim s (![] : Fin 0 → Fin s.rank)) (lo hi : BitVec 32) (a : FVec Ideal s .f32)
    (d : FVec Ideal S0 .f32) : FVec Ideal s .f32 :=
  clip hb lo hi (Host.roundeven (quotient hb a d))

/-- The reference's quantizer, rounding straight through: `clip (v + (round v - v))` with `v = a / d`. -/
def quantR (hb : S0.BroadcastsInDim s (![] : Fin 0 → Fin s.rank)) (lo hi : BitVec 32) (a : FVec Ideal s .f32)
    (d : FVec Ideal S0 .f32) : FVec Ideal s .f32 :=
  clip hb lo hi (addf (quotient hb a d) (subf (Host.roundeven (quotient hb a d)) (quotient hb a d)))

/-- The weight step `max |w| / 127`. -/
def scale {axes : List (Fin s.rank)} (hr : s.ReducesTo axes S0) (hu : 0 < S0.numel) (w : FVec Ideal s .f32) :
    FVec Ideal S0 .f32 :=
  Host.divf (Host.reduce FloatOps.maximumf (Host.absf w) (constant S0 .f32 0xFF800000#32) hr hu)
    (constant S0 .f32 0x42FE0000#32)

theorem quotient_real (hb : S0.BroadcastsInDim s (![] : Fin 0 → Fin s.rank)) {a : FVec Ideal s .f32}
    {d : FVec Ideal S0 .f32} (ha : ∀ i, ∃ r : ℝ, a i = (r : EReal)) (hd : d ValueIdx.ix0 ≠ 0) (i : s.Idx) :
    ∃ q : ℝ, quotient hb a d i = (q : EReal) := by
  obtain ⟨r, hr⟩ := ha i
  have e : broadcastInDim s ![] hb d i = d ValueIdx.ix0 := by
    unfold broadcastInDim
    exact congrArg d (funext fun a => a.elim0)
  show ∃ q : ℝ, Ideal.div (a i) (broadcastInDim s ![] hb d i) = (q : EReal)
  rw [e, hr]
  exact div_real r hd

/-- Where the tensor is real and the step is not zero, rounding straight through is rounding. -/
theorem quantR_eq_quantK (hb : S0.BroadcastsInDim s (![] : Fin 0 → Fin s.rank)) (lo hi : BitVec 32)
    {a : FVec Ideal s .f32} {d : FVec Ideal S0 .f32} (ha : ∀ i, ∃ r : ℝ, a i = (r : EReal))
    (hd : d ValueIdx.ix0 ≠ 0) : quantR hb lo hi a d = quantK hb lo hi a d := by
  unfold quantR quantK
  congr 1
  funext i
  obtain ⟨q, hq⟩ := quotient_real hb ha hd i
  show quotient hb a d i + (Ideal.liftRound Ideal.roundHalfEven (quotient hb a d i) - quotient hb a d i)
    = Ideal.liftRound Ideal.roundHalfEven (quotient hb a d i)
  rw [hq]
  exact ste_real q

/-- The weight step is not zero when the largest magnitude is not. -/
theorem scale_ne_zero {axes : List (Fin s.rank)} (hr : s.ReducesTo axes S0) (hu : 0 < S0.numel) (w : FVec Ideal s .f32)
    (h : Host.reduce FloatOps.maximumf (Host.absf w) (constant (F := Ideal) S0 .f32 0xFF800000#32) hr hu ValueIdx.ix0 ≠ 0) :
    scale hr hu w ValueIdx.ix0 ≠ 0 :=
  div_127_ne_zero h

/-- A product of nonzero scalars is nonzero. -/
theorem mulf_ne_zero {x y : FVec Ideal S0 .f32} (hx : x ValueIdx.ix0 ≠ 0) (hy : y ValueIdx.ix0 ≠ 0) :
    mulf x y ValueIdx.ix0 ≠ 0 :=
  mul_ne_zero hx hy

end Cert.Quant

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.PreFacts.lean ====
import proofs.«156016_j57432302682876_1_alg».proof.Pre_finite_inputs
import proofs.«156016_j57432302682876_1_alg».proof.Proof.Gen.Pre_finite_inputs
import proofs.«156016_j57432302682876_1_alg».proof.Proof.LibFinite
import proofs.«156016_j57432302682876_1_alg».proof.Proof.Quant
import Idealize.ShloMosaic.Lib.Affine

noncomputable section

namespace Cert.PreFacts

open Idealize.ShloMosaic Cert.Pre_finite_inputs Cert.Pre_finite_inputs.Facts

variable [Cert.Pre_finite_inputs.Facts]

/-- What the precondition says of the parameters: the four tensors that are quantized hold real numbers, the two
    weight tensors are not all zero, and the activation step is not zero. -/
structure Domain (w1 : FVec Ideal S3072x768 .f32) (b1 : FVec Ideal S3072 .f32) (w2 : FVec Ideal S768x3072 .f32)
    (b2 : FVec Ideal S768 .f32) (sa : FVec Ideal S1 .f32) : Prop where
  w1_real : ∀ i, ∃ r : ℝ, w1 i = (r : EReal)
  b1_real : ∀ i, ∃ r : ℝ, b1 i = (r : EReal)
  w2_real : ∀ i, ∃ r : ℝ, w2 i = (r : EReal)
  b2_real : ∀ i, ∃ r : ℝ, b2 i = (r : EReal)
  m1_ne : Host.reduce FloatOps.maximumf (Host.absf w1) (constant (F := Ideal) S_ .f32 0xFF800000#32)
      reducesTo_S3072x768_S_d0_1 h_S_ ValueIdx.ix0 ≠ 0
  m2_ne : Host.reduce FloatOps.maximumf (Host.absf w2) (constant (F := Ideal) S_ .f32 0xFF800000#32)
      reducesTo_S768x3072_S_d0_1 h_S_ ValueIdx.ix0 ≠ 0
  as_ne : shapeCast S_ sa shapeCasts_S1_S_ ValueIdx.ix0 ≠ 0

/-- A conjunction of two one-bit tensors holds at an index exactly when both hold there. -/
private theorem split_and {s : Shape} (a b : IVec s 1) (i : s.Idx) (h : andi a b i = 1#1) :
    a i = 1#1 ∧ b i = 1#1 :=
  IntOp.andi_eq_one.mp h

/-- A scalar tensor that compares above the zero scalar is not zero at its index. -/
private theorem ne_zero_of_ogt_scalar (a : FVec Ideal S_ .f32)
    (h : cmpf .ogt a (constant (F := Ideal) S_ .f32 0x00000000#32) ValueIdx.ix0 = 1#1) : a ValueIdx.ix0 ≠ 0 :=
  Cert.Quant.ne_zero_of_ogt h

/-- A scalar tensor that compares unequal to the zero scalar is not zero at its index. -/
private theorem ne_zero_of_une_scalar (a : FVec Ideal S_ .f32)
    (h : cmpf .une a (constant (F := Ideal) S_ .f32 0x00000000#32) ValueIdx.ix0 = 1#1) : a ValueIdx.ix0 ≠ 0 :=
  Cert.Quant.ne_zero_of_une h

theorem domain_of_pre (x : FVec Ideal S64x196x768 .f32) (w1 : FVec Ideal S3072x768 .f32) (b1 : FVec Ideal S3072 .f32)
    (w2 : FVec Ideal S768x3072 .f32) (b2 : FVec Ideal S768 .f32) (sa : FVec Ideal S1 .f32)
    (h : fn (F := Ideal) x w1 b1 w2 b2 sa = fun _ => 1#1) : Domain w1 b1 w2 b2 sa := by
  -- The precondition at its one index is a left-nested conjunction of nine one-bit scalars; take it apart
  -- from the outside in.
  have h0 := congrFun h ValueIdx.ix0
  dsimp only [fn, fn_part1, fn_part2] at h0
  obtain ⟨h1, has⟩ := split_and _ _ _ h0
  obtain ⟨h2, hm2⟩ := split_and _ _ _ h1
  obtain ⟨h3, hm1⟩ := split_and _ _ _ h2
  obtain ⟨h4, _⟩ := split_and _ _ _ h3
  obtain ⟨h5, hb2⟩ := split_and _ _ _ h4
  obtain ⟨h6, hw2⟩ := split_and _ _ _ h5
  obtain ⟨h7, hb1⟩ := split_and _ _ _ h6
  obtain ⟨_, hw1⟩ := split_and _ _ _ h7
  clear h0 h1 h2 h3 h4 h5 h6 h7 h
  exact
    { -- `|a i| < ⊤` at every entry says that every `a i` is a real number
      w1_real := Cert.LibFinite.real_of_all w1 bcast_S_S3072x768 reducesTo_S3072x768_S_d0_1 h_S_ _ hw1
      b1_real := Cert.LibFinite.real_of_all b1 bcast_S_S3072 reducesTo_S3072_S_d0 h_S_ _ hb1
      w2_real := Cert.LibFinite.real_of_all w2 bcast_S_S768x3072 reducesTo_S768x3072_S_d0_1 h_S_ _ hw2
      b2_real := Cert.LibFinite.real_of_all b2 bcast_S_S768 reducesTo_S768_S_d0 h_S_ _ hb2
      -- a largest magnitude that compares above zero is not zero
      m1_ne := ne_zero_of_ogt_scalar _ hm1
      m2_ne := ne_zero_of_ogt_scalar _ hm2
      -- the activation step compares unequal to zero
      as_ne := ne_zero_of_une_scalar _ has }

end Cert.PreFacts

end
-- ==== Proof.KernelHost.lean ====
/-
  What the kernel's launch finds in its operands.

  Before the launch the program computes, from the arguments, the activation step `a0 = a_s[0]`, the weight steps
  `ws = max |w| / 127`, and the four quantized parameters `clip (round (a / d))`: the weights by their own step, the
  first bias by `ws1 · a0`, the second by `ws2 · (a0 · ws1)`. The launch's six operand arrays are then: the
  activations flattened to 12544 rows; the two weight matrices (their change of float format is the identity on
  the extended reals); the two biases as one-row matrices. The program's second result is the output step
  `(a0 · ws1) · ws2`.
-/
import proofs.«156016_j57432302682876_1_alg».proof.Proof.Gen.KernelIdeal.Frame
import proofs.«156016_j57432302682876_1_alg».proof.Proof.Quant
import Idealize.ShloMosaic.Lib.StableHlo.Run
import Idealize.ShloMosaic.Lib.Tactic

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The arguments as launched, at their literal types. -/
abbrev ax (c : Dev nD) : FVec Ideal S64x196x768 .f32 := m ((c : Thread nD τ).loc main_arg0)
abbrev aw1 (c : Dev nD) : FVec Ideal S3072x768 .f32 := m ((c : Thread nD τ).loc main_arg1)
abbrev ab1 (c : Dev nD) : FVec Ideal S3072 .f32 := m ((c : Thread nD τ).loc main_arg2)
abbrev aw2 (c : Dev nD) : FVec Ideal S768x3072 .f32 := m ((c : Thread nD τ).loc main_arg3)
abbrev ab2 (c : Dev nD) : FVec Ideal S768 .f32 := m ((c : Thread nD τ).loc main_arg4)
abbrev asc (c : Dev nD) : FVec Ideal S1 .f32 := m ((c : Thread nD τ).loc main_arg5)

/-- The activation step as a scalar, the two weight steps, and the four quantized parameters. -/
def a0 (c : Dev nD) : FVec Ideal S_ .f32 := shapeCast S_ (asc m c) shapeCasts_S1_S_
def ws1 (c : Dev nD) : FVec Ideal S_ .f32 := Cert.Quant.scale reducesTo_S3072x768_S_d0_1 h_S_ (aw1 m c)
def ws2 (c : Dev nD) : FVec Ideal S_ .f32 := Cert.Quant.scale reducesTo_S768x3072_S_d0_1 h_S_ (aw2 m c)
def W1q (c : Dev nD) : FVec Ideal S3072x768 .f32 :=
  Cert.Quant.quantK bcast_S_S3072x768 0xC2FE0000#32 0x42FE0000#32 (aw1 m c) (ws1 m c)
def B1q (c : Dev nD) : FVec Ideal S3072 .f32 :=
  Cert.Quant.quantK bcast_S_S3072 0xCF000000#32 0x4F000000#32 (ab1 m c) (mulf (ws1 m c) (a0 m c))
def W2q (c : Dev nD) : FVec Ideal S768x3072 .f32 :=
  Cert.Quant.quantK bcast_S_S768x3072 0xC2FE0000#32 0x42FE0000#32 (aw2 m c) (ws2 m c)
def B2q (c : Dev nD) : FVec Ideal S768 .f32 :=
  Cert.Quant.quantK bcast_S_S768 0xCF000000#32 0x4F000000#32 (ab2 m c) (mulf (ws2 m c) (mulf (a0 m c) (ws1 m c)))

set_option maxHeartbeats 8000000 in
theorem V_x2 (c : Dev nD) :
    (V m c main_v27 : S12544x768.Idx → EReal) = shapeCast S12544x768 (ax m c) shapeCasts_S64x196x768_S12544x768 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
theorem V_w1 (c : Dev nD) :
    (V m c main_v28 : S3072x768.Idx → EReal) = truncf .bf16 (W1q m c) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
theorem V_b1 (c : Dev nD) :
    (V m c main_v30 : S1x3072.Idx → EReal) = shapeCast S1x3072 (B1q m c) shapeCasts_S3072_S1x3072 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
theorem V_w2 (c : Dev nD) :
    (V m c main_v29 : S768x3072.Idx → EReal) = truncf .bf16 (W2q m c) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
theorem V_b2 (c : Dev nD) :
    (V m c main_v31 : S1x768.Idx → EReal) = shapeCast S1x768 (B2q m c) shapeCasts_S768_S1x768 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
theorem V_s2 (c : Dev nD) :
    (V m c main_v26 : S_.Idx → EReal) = mulf (mulf (a0 m c) (ws1 m c)) (ws2 m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

end Cert.KernelIdeal.KHost

end
-- ==== Proof.Spec.lean ====
/-
  The two-layer perceptron on quantized parameters, at one output position.

  For one row `xr` of the activations (768 features), the first layer's weights `W1` (3072 × 768) and bias `B1`,
  the row `W2r` of the second layer's weights that belongs to the output feature, and that feature's bias `b2`:

    relu ( Σ_j ( Σ_d xr d · W1 j d  +  B1 j ) · W2r j  +  b2 ).

  Both programs compute this number at every output position; they differ in how they lay the positions out
  (the kernel flattens batch × token to 12544 rows and works on tiles of 448 rows) and in how they round the
  parameters, which is settled before this function is applied.
-/
import Idealize.ShloMosaic.PureOps.Ideal

noncomputable section

namespace Cert.Spec

open Idealize.ShloMosaic

/-- The perceptron at one output position. -/
def mlpAt (xr : Fin 768 → EReal) (W1 : Fin 3072 → Fin 768 → EReal) (B1 : Fin 3072 → EReal) (W2r : Fin 3072 → EReal)
    (b2 : EReal) : EReal :=
  max ((∑ j : Fin 3072, ((∑ d : Fin 768, xr d * W1 j d) + B1 j) * W2r j) + b2) (Ideal.ofBits .f32 0x00000000#32)

end Cert.Spec

end
-- ==== Proof.KernelBody.lean ====
import proofs.«156016_j57432302682876_1_alg».proof.Proof.Gen.KernelIdeal.Skeleton
import proofs.«156016_j57432302682876_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Cert.KernelIdeal Cert.KernelIdeal.Gen

/-! ## The two products' operand indices, axis by axis

Both products contract axis 1 of both operands and keep axis 0 of each: the output position `(p, j)` with the
contraction coordinate `k` reads the left operand at `(p, k)` and the right operand at `(j, k)`. -/

private theorem lhs_first_0 (i : S448x3072.Idx) (q : dot_S448x768_S3072x768_S448x3072_1_1_0_0_n_n.contr.Idx) :
    (dot_S448x768_S3072x768_S448x3072_1_1_0_0_n_n.lhsIdx i q 0).val = (i 0).val := by
  unfold DotDims.lhsIdx
  rw [dif_neg (show ¬(0 : Fin S448x768.rank) ∈ dot_S448x768_S3072x768_S448x3072_1_1_0_0_n_n.lhsBatch by decide), dif_pos (show (0 : Fin S448x768.rank) ∈ dot_S448x768_S3072x768_S448x3072_1_1_0_0_n_n.lhsNonContracting by decide)]
  rfl
private theorem lhs_first_1 (i : S448x3072.Idx) (q : dot_S448x768_S3072x768_S448x3072_1_1_0_0_n_n.contr.Idx) :
    (dot_S448x768_S3072x768_S448x3072_1_1_0_0_n_n.lhsIdx i q 1).val = (q ⟨0, by decide⟩).val :=
  dot_S448x768_S3072x768_S448x3072_1_1_0_0_n_n.lhsIdx_val_of_single rfl i q
private theorem rhs_first_0 (i : S448x3072.Idx) (q : dot_S448x768_S3072x768_S448x3072_1_1_0_0_n_n.contr.Idx) :
    (dot_S448x768_S3072x768_S448x3072_1_1_0_0_n_n.rhsIdx i q 0).val = (i 1).val := by
  unfold DotDims.rhsIdx
  rw [dif_neg (show ¬(0 : Fin S3072x768.rank) ∈ dot_S448x768_S3072x768_S448x3072_1_1_0_0_n_n.rhsBatch by decide), dif_pos (show (0 : Fin S3072x768.rank) ∈ dot_S448x768_S3072x768_S448x3072_1_1_0_0_n_n.rhsNonContracting by decide)]
  rfl
private theorem rhs_first_1 (i : S448x3072.Idx) (q : dot_S448x768_S3072x768_S448x3072_1_1_0_0_n_n.contr.Idx) :
    (dot_S448x768_S3072x768_S448x3072_1_1_0_0_n_n.rhsIdx i q 1).val = (q ⟨0, by decide⟩).val :=
  dot_S448x768_S3072x768_S448x3072_1_1_0_0_n_n.rhsIdx_val_of_single rfl i q

private theorem lhs_second_0 (i : S448x768.Idx) (q : dot_S448x3072_S768x3072_S448x768_1_1_0_0_n_n.contr.Idx) :
    (dot_S448x3072_S768x3072_S448x768_1_1_0_0_n_n.lhsIdx i q 0).val = (i 0).val := by
  unfold DotDims.lhsIdx
  rw [dif_neg (show ¬(0 : Fin S448x3072.rank) ∈ dot_S448x3072_S768x3072_S448x768_1_1_0_0_n_n.lhsBatch by decide), dif_pos (show (0 : Fin S448x3072.rank) ∈ dot_S448x3072_S768x3072_S448x768_1_1_0_0_n_n.lhsNonContracting by decide)]
  rfl
private theorem lhs_second_1 (i : S448x768.Idx) (q : dot_S448x3072_S768x3072_S448x768_1_1_0_0_n_n.contr.Idx) :
    (dot_S448x3072_S768x3072_S448x768_1_1_0_0_n_n.lhsIdx i q 1).val = (q ⟨0, by decide⟩).val :=
  dot_S448x3072_S768x3072_S448x768_1_1_0_0_n_n.lhsIdx_val_of_single rfl i q
private theorem rhs_second_0 (i : S448x768.Idx) (q : dot_S448x3072_S768x3072_S448x768_1_1_0_0_n_n.contr.Idx) :
    (dot_S448x3072_S768x3072_S448x768_1_1_0_0_n_n.rhsIdx i q 0).val = (i 1).val := by
  unfold DotDims.rhsIdx
  rw [dif_neg (show ¬(0 : Fin S768x3072.rank) ∈ dot_S448x3072_S768x3072_S448x768_1_1_0_0_n_n.rhsBatch by decide), dif_pos (show (0 : Fin S768x3072.rank) ∈ dot_S448x3072_S768x3072_S448x768_1_1_0_0_n_n.rhsNonContracting by decide)]
  rfl
private theorem rhs_second_1 (i : S448x768.Idx) (q : dot_S448x3072_S768x3072_S448x768_1_1_0_0_n_n.contr.Idx) :
    (dot_S448x3072_S768x3072_S448x768_1_1_0_0_n_n.rhsIdx i q 1).val = (q ⟨0, by decide⟩).val :=
  dot_S448x3072_S768x3072_S448x768_1_1_0_0_n_n.rhsIdx_val_of_single rfl i q

/-! ## Each product at one output position -/

/-- The first product from a zero accumulator: `out (p, j) = Σ_d a (p, d) · b (j, d)`, the sum over the 768 input features. -/
private theorem matmul_first_apply (a : FVec Ideal S448x768 .bf16) (b : FVec Ideal S3072x768 .bf16) (p : Fin 448) (j : Fin 3072) :
    matmul dot_S448x768_S3072x768_S448x3072_1_1_0_0_n_n none a b (constant (F := Ideal) S448x3072 .f32 0x00000000#32) (ValueIdx.ix2 p j)
      = ∑ d : Fin 768, a (ValueIdx.ix2 p d) * b (ValueIdx.ix2 j d) := by
  refine (Ideal.matmul_constant_zero_apply dot_S448x768_S3072x768_S448x3072_1_1_0_0_n_n none a b (ValueIdx.ix2 p j)).trans ?_
  rw [← Equiv.sum_comp (ValueIdx.contrEquiv1 dot_S448x768_S3072x768_S448x3072_1_1_0_0_n_n 768 rfl rfl).symm]
  refine Finset.sum_congr rfl fun k _ => ?_
  have hk := ValueIdx.contrEquiv1_symm_val dot_S448x768_S3072x768_S448x3072_1_1_0_0_n_n 768 rfl rfl k
  have el : dot_S448x768_S3072x768_S448x3072_1_1_0_0_n_n.lhsIdx (ValueIdx.ix2 p j) ((ValueIdx.contrEquiv1 dot_S448x768_S3072x768_S448x3072_1_1_0_0_n_n 768 rfl rfl).symm k) = ValueIdx.ix2 p k := funext fun ax => Fin.ext (by
    match ax with
    | ⟨0, _⟩ => exact lhs_first_0 _ _
    | ⟨1, _⟩ => exact (lhs_first_1 _ _).trans hk)
  have er : dot_S448x768_S3072x768_S448x3072_1_1_0_0_n_n.rhsIdx (ValueIdx.ix2 p j) ((ValueIdx.contrEquiv1 dot_S448x768_S3072x768_S448x3072_1_1_0_0_n_n 768 rfl rfl).symm k) = ValueIdx.ix2 j k := funext fun ax => Fin.ext (by
    match ax with
    | ⟨0, _⟩ => exact rhs_first_0 _ _
    | ⟨1, _⟩ => exact (rhs_first_1 _ _).trans hk)
  rw [el, er]

/-- The second product from a zero accumulator: `out (p, q) = Σ_j a (p, j) · b (q, j)`, the sum over the 3072 hidden features. -/
private theorem matmul_second_apply (a : FVec Ideal S448x3072 .bf16) (b : FVec Ideal S768x3072 .bf16) (p : Fin 448) (j : Fin 768) :
    matmul dot_S448x3072_S768x3072_S448x768_1_1_0_0_n_n none a b (constant (F := Ideal) S448x768 .f32 0x00000000#32) (ValueIdx.ix2 p j)
      = ∑ d : Fin 3072, a (ValueIdx.ix2 p d) * b (ValueIdx.ix2 j d) := by
  refine (Ideal.matmul_constant_zero_apply dot_S448x3072_S768x3072_S448x768_1_1_0_0_n_n none a b (ValueIdx.ix2 p j)).trans ?_
  rw [← Equiv.sum_comp (ValueIdx.contrEquiv1 dot_S448x3072_S768x3072_S448x768_1_1_0_0_n_n 3072 rfl rfl).symm]
  refine Finset.sum_congr rfl fun k _ => ?_
  have hk := ValueIdx.contrEquiv1_symm_val dot_S448x3072_S768x3072_S448x768_1_1_0_0_n_n 3072 rfl rfl k
  have el : dot_S448x3072_S768x3072_S448x768_1_1_0_0_n_n.lhsIdx (ValueIdx.ix2 p j) ((ValueIdx.contrEquiv1 dot_S448x3072_S768x3072_S448x768_1_1_0_0_n_n 3072 rfl rfl).symm k) = ValueIdx.ix2 p k := funext fun ax => Fin.ext (by
    match ax with
    | ⟨0, _⟩ => exact lhs_second_0 _ _
    | ⟨1, _⟩ => exact (lhs_second_1 _ _).trans hk)
  have er : dot_S448x3072_S768x3072_S448x768_1_1_0_0_n_n.rhsIdx (ValueIdx.ix2 p j) ((ValueIdx.contrEquiv1 dot_S448x3072_S768x3072_S448x768_1_1_0_0_n_n 3072 rfl rfl).symm k) = ValueIdx.ix2 j k := funext fun ax => Fin.ext (by
    match ax with
    | ⟨0, _⟩ => exact rhs_second_0 _ _
    | ⟨1, _⟩ => exact (rhs_second_1 _ _).trans hk)
  rw [el, er]

/-! ## The payload at one output position -/

/-- The body's value at `(p, q)` is the perceptron of row `p` of the activations at output feature `q`: the casts to
    the same shape and the format changes are the identity at the ideal values, each product is the sum above, each
    bias row broadcast over the 448 rows reads its one row, and the last operation is the maximum with the zero word. -/
theorem pay_apply (x0 : Vec Ideal S448x768 .f32) (x1 : Vec Ideal S3072x768 .bf16) (x2 : Vec Ideal S1x3072 .f32)
    (x3 : Vec Ideal S768x3072 .bf16) (x4 : Vec Ideal S1x768 .f32) (p : Fin 448) (q : Fin 768) :
    k0_pay1 (F := Ideal) x0 x1 x2 x3 x4 (ValueIdx.ix2 p q)
      = Cert.Spec.mlpAt (fun d => x0 (ValueIdx.ix2 p d)) (fun j d => x1 (ValueIdx.ix2 j d))
          (fun j => x2 (ValueIdx.ix2 (0 : Fin 1) j)) (fun j => x3 (ValueIdx.ix2 q j)) (x4 (ValueIdx.ix2 (0 : Fin 1) q)) := by
  unfold k0_pay1 Cert.Spec.mlpAt
  simp only [shapeCast_self]
  -- the maximum with the zero word, read at the position; the zero word is the same on both sides
  rw [ValueIdx.maximumf_apply, ValueIdx.broadcast_apply]
  refine congrArg₂ max ?_ rfl
  -- the second layer: product plus its bias row, which reads its one row at `q`
  rw [ValueIdx.addf_apply]
  refine congrArg₂ (· + ·) ?_ (ValueIdx.broadcastTo_1b_ab_apply x4 _ p q)
  refine (matmul_second_apply _ x3 p q).trans ?_
  refine Finset.sum_congr rfl fun j _ => ?_
  refine congrArg (· * x3 (ValueIdx.ix2 q j)) ?_
  -- the first layer at hidden feature `j`: the format change is the identity, then product plus bias row at `j`
  rw [ValueIdx.truncf_apply, ValueIdx.addf_apply]
  refine congrArg₂ (· + ·) ?_ (ValueIdx.broadcastTo_1b_ab_apply x2 _ p j)
  exact matmul_first_apply _ x1 p j

end Cert.KernelIdeal.Body

end
-- ==== Proof.KernelValue.lean ====
/-
  The kernel's output array, whole.

  The launch walks 28 tiles of 448 rows. At tile `t` the body reads rows `448 t … 448 t + 447` of the flattened
  activations and the whole of the four parameter arrays, and writes the perceptron of each of its rows back to the
  same rows of the output. So row `r`, column `q` of the output array ends at the perceptron of row `r` of the
  activations for output feature `q`: every row lies in exactly the tile `r / 448`. The program then reshapes the
  12544 × 768 array to 64 × 196 × 768.
-/
import proofs.«156016_j57432302682876_1_alg».proof.Proof.KernelHost
import proofs.«156016_j57432302682876_1_alg».proof.Proof.KernelBody
import proofs.«156016_j57432302682876_1_alg».proof.Proof.Spec
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem
open Idealize.ShloMosaic.Pipeline (Dat)
open ValueIdx (ix1 ix2 ix3)

variable (m : (ℓ : Loc nD τ sig) → Buf (Elt Ideal) ℓ) (ρ : Dev nD → PrngReg)

theorem hz : (![0, 0] : Fin 2 → Nat) = fun _ => 0 := funext fun a => by fin_cases a <;> rfl

/-- The operand arrays as the launch finds them, at their literal types. -/
abbrev X2 (c : Dev nD) : S12544x768.Idx → EReal := V m c main_v27
abbrev W1 (c : Dev nD) : S3072x768.Idx → EReal := V m c main_v28
abbrev B1 (c : Dev nD) : S1x3072.Idx → EReal := V m c main_v30
abbrev W2 (c : Dev nD) : S768x3072.Idx → EReal := V m c main_v29
abbrev B2 (c : Dev nD) : S1x768.Idx → EReal := V m c main_v31

/-- The output array: at row `r`, column `q`, the perceptron of row `r` of the activations for feature `q`. -/
def G2 (c : Dev nD) : S12544x768.Idx → EReal := fun i =>
  Cert.Spec.mlpAt (fun d => X2 m c (ix2 (i 0) d)) (fun j d => W1 m c (ix2 j d)) (fun j => B1 m c (ix2 (0 : Fin 1) j))
    (fun j => W2 m c (ix2 (i 1) j)) (B2 m c (ix2 (0 : Fin 1) (i 1)))

/-- The index maps over the grid: the activations' and the output's tile index is the point, every parameter's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Tile `t` of the activations is rows `448 t …` of the flattened array. -/
theorem iblk0_apply (c : Dev nD) (t : Fin cfg0.N) (y : S448x768.Idx) (k : S12544x768.Idx)
    (hk0 : (k 0).val = 448 * t.val + (y 0).val) (hk1 : (k 1).val = (y 1).val) :
    (iblk m c 0 t : Vec Ideal S448x768 .f32) y = X2 m c k := by
  obtain ⟨e00, e01, -⟩ := idx_facts t
  unfold iblk
  rw [View.read_apply]
  show V m c main_v27 _ = V m c main_v27 _
  congr 1
  funext a
  apply Fin.ext
  match a with
  | ⟨0, _⟩ => show win0_0.index t 0 * 448 + 1 * (y 0).val = (k 0).val; rw [e00, hk0]; omega
  | ⟨1, _⟩ => show win0_0.index t 1 * 768 + 1 * (y 1).val = (k 1).val; rw [e01, hk1]; omega

/-- Every tile of a parameter is the whole parameter. -/
theorem iblk1_eq (c : Dev nD) (t : Fin cfg0.N) : (iblk m c 1 t : Vec Ideal S3072x768 .bf16) = W1 m c := by
  obtain ⟨-, -, e0, e1, -⟩ := idx_facts t
  funext y
  unfold iblk
  rw [View.read_apply]
  show V m c main_v28 _ = V m c main_v28 _
  congr 1
  funext a
  apply Fin.ext
  match a with
  | ⟨0, _⟩ => show win0_1.index t 0 * 3072 + 1 * (y 0).val = (y 0).val; rw [e0]; omega
  | ⟨1, _⟩ => show win0_1.index t 1 * 768 + 1 * (y 1).val = (y 1).val; rw [e1]; omega

theorem iblk2_eq (c : Dev nD) (t : Fin cfg0.N) : (iblk m c 2 t : Vec Ideal S1x3072 .f32) = B1 m c := by
  obtain ⟨-, -, -, -, e0, e1, -⟩ := idx_facts t
  funext y
  unfold iblk
  rw [View.read_apply]
  show V m c main_v30 _ = V m c main_v30 _
  congr 1
  funext a
  apply Fin.ext
  match a with
  | ⟨0, _⟩ => show win0_2.index t 0 * 1 + 1 * (y 0).val = (y 0).val; rw [e0]; omega
  | ⟨1, _⟩ => show win0_2.index t 1 * 3072 + 1 * (y 1).val = (y 1).val; rw [e1]; omega

theorem iblk3_eq (c : Dev nD) (t : Fin cfg0.N) : (iblk m c 3 t : Vec Ideal S768x3072 .bf16) = W2 m c := by
  obtain ⟨-, -, -, -, -, -, e0, e1, -⟩ := idx_facts t
  funext y
  unfold iblk
  rw [View.read_apply]
  show V m c main_v29 _ = V m c main_v29 _
  congr 1
  funext a
  apply Fin.ext
  match a with
  | ⟨0, _⟩ => show win0_3.index t 0 * 768 + 1 * (y 0).val = (y 0).val; rw [e0]; omega
  | ⟨1, _⟩ => show win0_3.index t 1 * 3072 + 1 * (y 1).val = (y 1).val; rw [e1]; omega

theorem iblk4_eq (c : Dev nD) (t : Fin cfg0.N) : (iblk m c 4 t : Vec Ideal S1x768 .f32) = B2 m c := by
  obtain ⟨-, -, -, -, -, -, -, -, e0, e1, -⟩ := idx_facts t
  funext y
  unfold iblk
  rw [View.read_apply]
  show V m c main_v31 _ = V m c main_v31 _
  congr 1
  funext a
  apply Fin.ext
  match a with
  | ⟨0, _⟩ => show win0_4.index t 0 * 1 + 1 * (y 0).val = (y 0).val; rw [e0]; omega
  | ⟨1, _⟩ => show win0_4.index t 1 * 768 + 1 * (y 1).val = (y 1).val; rw [e1]; omega

/-- The body's result on a tile, at one of its entries, is the output array's entry in the tile's rows. -/
theorem pay_block (x0 : Vec Ideal S448x768 .f32) (x1 : Vec Ideal S3072x768 .bf16) (x2 : Vec Ideal S1x3072 .f32)
    (x3 : Vec Ideal S768x3072 .bf16) (x4 : Vec Ideal S1x768 .f32) (c : Dev nD) (tv : Nat)
    (h0 : ∀ (y : S448x768.Idx) (k : S12544x768.Idx), (k 0).val = 448 * tv + (y 0).val → (k 1).val = (y 1).val → x0 y = X2 m c k)
    (h1 : x1 = W1 m c) (h2 : x2 = B1 m c) (h3 : x3 = W2 m c) (h4 : x4 = B2 m c)
    (j : S448x768.Idx) (i : S12544x768.Idx) (hi0 : (i 0).val = 448 * tv + (j 0).val) (hi1 : (i 1).val = (j 1).val) :
    k0_pay1 (F := Ideal) x0 x1 x2 x3 x4 j = G2 m c i := by
  obtain ⟨p, q, rfl⟩ : ∃ (p : Fin 448) (q : Fin 768), j = ix2 p q := ⟨j 0, j 1, ValueIdx.eq_ix2 j⟩
  have hi0' : (i 0).val = 448 * tv + p.val := hi0
  have hq : i 1 = q := Fin.ext hi1
  rw [Cert.KernelIdeal.Body.pay_apply, h1, h2, h3, h4]
  unfold G2
  rw [hq]
  congr 1
  funext d
  exact h0 (ix2 p d) (ix2 (i 0) d) hi0' rfl

/-- What tile `t` writes back is tile `t` of the output array. -/
theorem flushed_eq (c : Dev nD) (t : Fin cfg0.N) :
    (dats m 0 c).flushed 5 t = ((cfg0.win 5).blk t).view.read (Elt Ideal) (G2 m c) := by
  show (cfg0.win 5).cut (grid0.coords t) ((dats m 0 c).after 5 t) = _
  rw [after0_5]
  unfold out0_5
  rw [View.canon_unit_zero hz]
  simp only [View.ld_unit_zero (S := S448x768) hz, View.ld_unit_zero (S := S3072x768) hz, View.ld_unit_zero (S := S1x3072) hz,
    View.ld_unit_zero (S := S768x3072) hz, View.ld_unit_zero (S := S1x768) hz]
  obtain ⟨-, -, -, -, -, -, -, -, -, -, e50, e51⟩ := idx_facts t
  funext j
  show k0_pay1 (F := Ideal) (iblk m c 0 t) (iblk m c 1 t) (iblk m c 2 t) (iblk m c 3 t) (iblk m c 4 t) j
    = G2 m c (((cfg0.win 5).blk t).view.emb j)
  refine pay_block m (iblk m c 0 t) (iblk m c 1 t) (iblk m c 2 t) (iblk m c 3 t) (iblk m c 4 t) c t.val
    (fun y k hk0 hk1 => iblk0_apply m c t y k hk0 hk1) (iblk1_eq m c t) (iblk2_eq m c t) (iblk3_eq m c t) (iblk4_eq m c t)
    j (((cfg0.win 5).blk t).view.emb j) ?_ ?_
  · show win0_5.index t 0 * 448 + 1 * (j 0).val = 448 * t.val + (j 0).val
    rw [e50]; omega
  · show win0_5.index t 1 * 768 + 1 * (j 1).val = (j 1).val
    rw [e51]; omega

/-- An index of the output array is in tile `t` iff each coordinate is in the tile's range on its axis. -/
theorem mem_blk5 (t : Fin cfg0.N) (i : S12544x768.Idx) :
    i ∈ ((cfg0.win 5).blk t).view.set ↔ ∀ a : Fin 2, win0_5.index t a * S448x768.size a ≤ (i a).val
      ∧ (i a).val < win0_5.index t a * S448x768.size a + S448x768.size a := by
  show i ∈ ((View.whole main_v32).slice (win0_5.rect t)).set ↔ _
  rw [View.set_slice_whole, Rect.mem_set_unit]
  exact Iff.rfl

/-- Row `r` lies in tile `r / 448`. -/
theorem cover (i : S12544x768.Idx) :
    ∃ t : Fin cfg0.N, (cfg0.win 5).flush t = true ∧ i ∈ ((cfg0.win 5).blk t).view.set := by
  have hi0 : (i 0).val < 12544 := (i 0).isLt
  have hi1 : (i 1).val < 768 := (i 1).isLt
  have hN : cfg0.N = 28 := N_0
  have ht : (i 0).val / 448 < cfg0.N := by rw [hN]; omega
  obtain ⟨-, -, -, -, -, -, -, -, -, -, e50, e51⟩ := idx_facts ⟨(i 0).val / 448, ht⟩
  have e50' : win0_5.index ⟨(i 0).val / 448, ht⟩ (0 : Fin 2) = (i 0).val / 448 := e50
  refine ⟨⟨(i 0).val / 448, ht⟩, flush0_5 _, ?_⟩
  rw [mem_blk5]
  intro a
  match a with
  | ⟨0, _⟩ =>
    show win0_5.index ⟨(i 0).val / 448, ht⟩ 0 * 448 ≤ (i 0).val ∧ (i 0).val < win0_5.index ⟨(i 0).val / 448, ht⟩ 0 * 448 + 448
    rw [e50']; omega
  | ⟨1, _⟩ =>
    show win0_5.index ⟨(i 0).val / 448, ht⟩ 1 * 768 ≤ (i 1).val ∧ (i 1).val < win0_5.index ⟨(i 0).val / 448, ht⟩ 1 * 768 + 768
    rw [e51]; omega

/-- The output array after the launch. -/
theorem final5 (c : Dev nD) : (dats m 0 c).arrAt 5 cfg0.N = G2 m c :=
  (dats m 0 c).arrAt_eq_of_cover 5 (G2 m c) (fun t _ => flushed_eq m c t) cover

/-! ## After the launch: the reshape, and the run -/

/-- The first result: the output array reshaped to batch × token × feature. -/
def out (c : Dev nD) : S64x196x768.Idx → EReal := shapeCast S64x196x768 (G2 m c) shapeCasts_S12544x768_S64x196x768

/-- The second result: the output step. -/
def step (c : Dev nD) : S_.Idx → EReal := mulf (mulf (a0 m c) (ws1 m c)) (ws2 m c)

theorem tail_out (c : Dev nD) :
    Pipeline.afterTail₀ cfgs (dats m) 0 (V0 m) [hostOps1] c main_v33 = out m c := by
  unfold Pipeline.afterTail₀
  show StableHlo.after hostOps1 _ (Proc.devRef .tc main_v33) = _
  after_results
  rw [show Pipeline.withArrays (cfgs 0).spec c (V0 m c) (fun w => (dats m 0 c).arrAt w (cfgs 0).N) (Proc.devRef .tc main_v32) = G2 m c
    from (Pipeline.withArrays_arr spec0 launch0.win.arr_inj c _ _ 5).trans (final5 m c)]
  rfl

theorem tail_step (c : Dev nD) :
    Pipeline.afterTail₀ cfgs (dats m) 0 (V0 m) [hostOps1] c main_v26 = step m c := by
  unfold Pipeline.afterTail₀
  rw [StableHlo.after_of_forall_not_mem (b := Proc.devRef .tc main_v26) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v26 (by exact (by decide : ∀ w, Pipeline.arrRef spec0 w ≠ main_v26))]
  exact V_s2 m c

/-- Every weakly fair execution of the kernel program ends with the two results at `out` and `step` and the
    arguments as launched. -/
theorem run : θ_run defs (onTc (τ := τ) (main (F := Ideal))) ⟨m, fun _ => 0, ρ⟩ fun r => ∀ c : Dev nD,
      r.2.mem ((c.tc : Thread nD τ).loc main_v33) = out m c
      ∧ r.2.mem ((c.tc : Thread nD τ).loc main_v26) = step m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v33 (Pipeline.mem_restRefs_of main_v33 (by decide) (by decide))).trans (tail_out m c),
      ((h c).2 main_v26 (Pipeline.mem_restRefs_of main_v26 (by decide) (by decide))).trans (tail_step m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ## The first result at an index -/

/-- At batch `b`, token `s`, feature `q` the first result is the perceptron of the activations' row `(b, s)` on the
    quantized parameters: the flattened row is `196 b + s`, the weight matrices are read as they are, and each
    one-row bias is read at its column. -/
theorem out_apply (c : Dev nD) (i : S64x196x768.Idx) :
    out m c i = Cert.Spec.mlpAt (fun d => ax m c (ix3 (i 0) (i 1) d)) (fun j d => W1q m c (ix2 j d)) (fun j => B1q m c (ix1 j))
      (fun j => W2q m c (ix2 (i 2) j)) (B2q m c (ix1 (i 2))) := by
  have hi0 : (i 0).val < 64 := (i 0).isLt
  have hi1 : (i 1).val < 196 := (i 1).isLt
  have hi2 : (i 2).val < 768 := (i 2).isLt
  have hr : 196 * (i 0).val + (i 1).val < 12544 := by omega
  unfold out
  rw [shapeCast_apply (G2 m c) shapeCasts_S12544x768_S64x196x768 i (ix2 ⟨196 * (i 0).val + (i 1).val, hr⟩ (i 2)) (by
    rw [Shape.rowMajor_val_two, Shape.rowMajor_val_three]
    show (196 * (i 0).val + (i 1).val) * 768 + (i 2).val = ((i 0).val * 196 + (i 1).val) * 768 + (i 2).val
    omega)]
  unfold G2
  have ex : ∀ d : Fin 768, X2 m c (ix2 ⟨196 * (i 0).val + (i 1).val, hr⟩ d) = ax m c (ix3 (i 0) (i 1) d) := fun d => by
    show (V m c main_v27 : S12544x768.Idx → EReal) _ = _
    rw [V_x2]
    refine shapeCast_apply (ax m c) shapeCasts_S64x196x768_S12544x768 _ _ ?_
    rw [Shape.rowMajor_val_two, Shape.rowMajor_val_three]
    show ((i 0).val * 196 + (i 1).val) * 768 + d.val = (196 * (i 0).val + (i 1).val) * 768 + d.val
    omega
  have ew1 : ∀ (j : Fin 3072) (d : Fin 768), W1 m c (ix2 j d) = W1q m c (ix2 j d) := fun j d => by
    show (V m c main_v28 : S3072x768.Idx → EReal) _ = _
    rw [V_w1]; rfl
  have eb1 : ∀ j : Fin 3072, B1 m c (ix2 (0 : Fin 1) j) = B1q m c (ix1 j) := fun j => by
    show (V m c main_v30 : S1x3072.Idx → EReal) _ = _
    rw [V_b1]
    refine shapeCast_apply (B1q m c) shapeCasts_S3072_S1x3072 _ _ ?_
    rw [Shape.rowMajor_val_one, Shape.rowMajor_val_two]
    show j.val = 0 * 3072 + j.val
    omega
  have ew2 : ∀ j : Fin 3072, W2 m c (ix2 (i 2) j) = W2q m c (ix2 (i 2) j) := fun j => by
    show (V m c main_v29 : S768x3072.Idx → EReal) _ = _
    rw [V_w2]; rfl
  have eb2 : B2 m c (ix2 (0 : Fin 1) (i 2)) = B2q m c (ix1 (i 2)) := by
    show (V m c main_v31 : S1x768.Idx → EReal) _ = _
    rw [V_b2]
    refine shapeCast_apply (B2q m c) shapeCasts_S768_S1x768 _ _ ?_
    rw [Shape.rowMajor_val_one, Shape.rowMajor_val_two]
    show (i 2).val = 0 * 768 + (i 2).val
    omega
  show Cert.Spec.mlpAt (fun d => X2 m c (ix2 ⟨196 * (i 0).val + (i 1).val, hr⟩ d)) (fun j d => W1 m c (ix2 j d))
      (fun j => B1 m c (ix2 (0 : Fin 1) j)) (fun j => W2 m c (ix2 (i 2) j)) (B2 m c (ix2 (0 : Fin 1) (i 2))) = _
  simp only [ex, ew1, eb1, ew2, eb2]

end Cert.KernelIdeal.KValue

end
-- ==== Proof.RefValue.lean ====
/-
  The reference program read at one output position, and its four parameter stages.

  The reference computes, at position `(b, t, f)` of the output,

    max ( Σ_k ( Σ_d x[b,t,d] · W1q[k,d]  +  B1q[k] ) · W2q[f,k]  +  B2q[f] ,  0.0 ),

  where `W1q`, `B1q`, `W2q`, `B2q` are the quantized first-layer weights and bias and second-layer weights and
  bias. Each of the four is the straight-through quantizer of `Cert.Quant` applied to a parameter and a step:
  the weights use their own step `max |w| / 127`, the biases the product of the steps before them (with the
  activation step, the scalar read out of the one-element argument).

  `out_apply` reads the two contractions and the two bias broadcasts of the program at an index and names the
  result `Cert.Spec.mlpAt`; the four `*_eq` equations identify the stages with `Cert.Quant.quantR`.
-/
import proofs.«156016_j57432302682876_1_alg».proof.Proof.Gen.ReferenceIdeal.Run
import proofs.«156016_j57432302682876_1_alg».proof.Proof.Gen.ReferenceIdeal.Read
import proofs.«156016_j57432302682876_1_alg».proof.Proof.Spec
import proofs.«156016_j57432302682876_1_alg».proof.Proof.Quant

noncomputable section

namespace Cert.ReferenceIdeal.RefValue

open Idealize.ShloMosaic Cert.ReferenceIdeal Cert.ReferenceIdeal.Gen Cert.ReferenceIdeal.Read

/-! ## The index functions of the two contractions and the bias broadcasts, by coordinates

At output position `i = (b, t, f)` the second contraction runs over `k : Fin 3072`: it reads the hidden
activation at `(b, t, k)` and the second weight matrix at `(f, k)`. The hidden activation at `(b, t, k)` is the
first contraction over `d : Fin 768`, reading the input at `(b, t, d)` and the first weight matrix at `(k, d)`, plus
the first bias, which two broadcasts carry from `(k)` to `(0, 0, k)` to `(b, t, k)`; likewise the second bias goes
from `(f)` to `(0, 0, f)` to `(b, t, f)`. -/

/-- The second contraction reads the second weight matrix at row `f = i 2`, column `k`. -/
private theorem ridx38 (i : S64x196x768.Idx) (k : Fin 3072) : ridx_main_v38 i k = ValueIdx.ix2 (i 2) k := by
  funext a; match a with | ⟨0, _⟩ => rfl | ⟨1, _⟩ => rfl

/-- The first contraction, at hidden position `(b, t, k)`, reads the input at `(b, t, d)`. -/
private theorem lidx17 (i : S64x196x768.Idx) (k : Fin 3072) (d : Fin 768) :
    lidx_main_v17 (lidx_main_v38 i k) d = ValueIdx.ix3 (i 0) (i 1) d := by
  funext a; match a with | ⟨0, _⟩ => rfl | ⟨1, _⟩ => rfl | ⟨2, _⟩ => rfl

/-- The first contraction, at hidden position `(b, t, k)`, reads the first weight matrix at `(k, d)`. -/
private theorem ridx17 (i : S64x196x768.Idx) (k : Fin 3072) (d : Fin 768) :
    ridx_main_v17 (lidx_main_v38 i k) d = ValueIdx.ix2 k d := by
  funext a; match a with | ⟨0, _⟩ => rfl | ⟨1, _⟩ => rfl

/-- The first bias, broadcast to hidden position `(b, t, k)`, is read at `k`. -/
private theorem idx18 (i : S64x196x768.Idx) (k : Fin 3072) :
    idx_main_v18 (idx_main_v19 (lidx_main_v38 i k)) = ValueIdx.ix1 k := by
  funext a; match a with | ⟨0, _⟩ => rfl

/-- The second bias, broadcast to output position `(b, t, f)`, is read at `f = i 2`. -/
private theorem idx39 (i : S64x196x768.Idx) : idx_main_v39 (idx_main_v40 i) = ValueIdx.ix1 (i 2) := by
  funext a; match a with | ⟨0, _⟩ => rfl

/-! ## The output at an index -/

theorem out_apply (x0 : FVec Ideal S64x196x768 .f32) (x1 : FVec Ideal S3072x768 .f32) (x2 : FVec Ideal S3072 .f32)
    (x3 : FVec Ideal S768x3072 .f32) (x4 : FVec Ideal S768 .f32) (x5 : FVec Ideal S1 .f32) (i : S64x196x768.Idx) :
    val_main_v42 (F := Ideal) x0 x1 x2 x3 x4 x5 i
      = Cert.Spec.mlpAt (fun d => x0 (ValueIdx.ix3 (i 0) (i 1) d)) (fun j d => val_main_v9 (F := Ideal) x1 (ValueIdx.ix2 j d))
          (fun j => val_main_v16 (F := Ideal) x1 x2 x5 (ValueIdx.ix1 j)) (fun j => val_main_v30 (F := Ideal) x3 (ValueIdx.ix2 (i 2) j))
          (val_main_v37 (F := Ideal) x1 x3 x4 x5 (ValueIdx.ix1 (i 2))) := by
  -- One term of the second contraction: the hidden activation at (b, t, k) is the first contraction over d plus
  -- the first bias at k, and it multiplies the second weight matrix at (f, k).
  have hterm : ∀ k : Fin 3072,
      val_main_v20 (F := Ideal) x0 x1 x2 x5 (lidx_main_v38 i k) * val_main_v30 (F := Ideal) x3 (ridx_main_v38 i k)
        = ((∑ d : Fin 768, x0 (ValueIdx.ix3 (i 0) (i 1) d) * val_main_v9 (F := Ideal) x1 (ValueIdx.ix2 k d))
            + val_main_v16 (F := Ideal) x1 x2 x5 (ValueIdx.ix1 k)) * val_main_v30 (F := Ideal) x3 (ValueIdx.ix2 (i 2) k) := by
    intro k
    rw [val_main_v20_apply, val_main_v17_apply, val_main_v19_apply, val_main_v18_apply, idx18, ridx38]
    simp only [lidx17, ridx17]
    -- on the extended reals the sum of two floats is their sum
    rfl
  -- The output is the maximum of (second contraction + second bias at f) and the zero word.
  rw [val_main_v42_apply, val_main_v41_apply, val_main_v38_apply, val_main_v40_apply, val_main_v39_apply,
    val_main_call8_v0_apply, val_main_call8_cst_apply, idx39]
  simp only [hterm]
  -- what is left is the definition of the perceptron at one position: max, + and the zero word read on the extended reals
  rfl

/-! ## The four parameter stages are straight-through quantizers

Each stage is printed as `min (broadcast hi) (max (broadcast lo) (v + (round v - v)))` with `v = a / broadcast d`:
the same term as `Cert.Quant.quantR` once the definitions on both sides are opened. The weight steps are
`max |w| / 127` with the maximum folded from `-∞`, the term `Cert.Quant.scale`. -/

/-- The quantized first-layer weights: `x1` with its own step, clipped to `[-127, 127]`. -/
theorem w1q_eq (x1 : FVec Ideal S3072x768 .f32) :
    val_main_v9 (F := Ideal) x1
      = Cert.Quant.quantR bcast_S_S3072x768 0xC2FE0000#32 0x42FE0000#32 x1 (Cert.Quant.scale reducesTo_S3072x768_S_d0_1 h_S_ x1) := by
  unfold Cert.Quant.quantR Cert.Quant.clip Cert.Quant.quotient Cert.Quant.scale
  unfold val_main_v9 val_main_call1_v4 val_main_call1_v3 val_main_cst_2 val_main_call1_v2 val_main_call1_v1
    val_main_call1_v0 val_main_cst_1 val_main_v8 val_main_v7 val_main_v6 val_main_v5 val_main_v4 val_main_v3
    val_main_v2 val_main_v1 val_main_cst val_main_cst_0
  rfl

/-- The quantized first-layer bias: `x2` with the step (first weight step) · (activation step), clipped to `[-2³¹, 2³¹]`. -/
theorem b1q_eq (x1 : FVec Ideal S3072x768 .f32) (x2 : FVec Ideal S3072 .f32) (x5 : FVec Ideal S1 .f32) :
    val_main_v16 (F := Ideal) x1 x2 x5
      = Cert.Quant.quantR bcast_S_S3072 0xCF000000#32 0x4F000000#32 x2
          (mulf (Cert.Quant.scale reducesTo_S3072x768_S_d0_1 h_S_ x1) (shapeCast S_ x5 shapeCasts_S1_S_)) := by
  unfold Cert.Quant.quantR Cert.Quant.clip Cert.Quant.quotient Cert.Quant.scale
  unfold val_main_v16 val_main_call3_v4 val_main_call3_v3 val_main_cst_4 val_main_call3_v2 val_main_call3_v1
    val_main_call3_v0 val_main_cst_3 val_main_v15 val_main_v14 val_main_v13 val_main_v12 val_main_v11 val_main_v10
    val_main_v3 val_main_v2 val_main_v1 val_main_cst val_main_cst_0 val_main_v0
  rfl

/-- The quantized second-layer weights: `x3` with its own step, clipped to `[-127, 127]`. -/
theorem w2q_eq (x3 : FVec Ideal S768x3072 .f32) :
    val_main_v30 (F := Ideal) x3
      = Cert.Quant.quantR bcast_S_S768x3072 0xC2FE0000#32 0x42FE0000#32 x3 (Cert.Quant.scale reducesTo_S768x3072_S_d0_1 h_S_ x3) := by
  unfold Cert.Quant.quantR Cert.Quant.clip Cert.Quant.quotient Cert.Quant.scale
  unfold val_main_v30 val_main_call5_v4 val_main_call5_v3 val_main_cst_8 val_main_call5_v2 val_main_call5_v1
    val_main_call5_v0 val_main_cst_7 val_main_v29 val_main_v28 val_main_v27 val_main_v26 val_main_v25 val_main_v24
    val_main_v23 val_main_v22 val_main_cst_5 val_main_cst_6
  rfl

/-- The quantized second-layer bias: `x4` with the step (second weight step) · ((activation step) · (first weight step)),
    clipped to `[-2³¹, 2³¹]`. -/
theorem b2q_eq (x1 : FVec Ideal S3072x768 .f32) (x3 : FVec Ideal S768x3072 .f32) (x4 : FVec Ideal S768 .f32) (x5 : FVec Ideal S1 .f32) :
    val_main_v37 (F := Ideal) x1 x3 x4 x5
      = Cert.Quant.quantR bcast_S_S768 0xCF000000#32 0x4F000000#32 x4
          (mulf (Cert.Quant.scale reducesTo_S768x3072_S_d0_1 h_S_ x3)
            (mulf (shapeCast S_ x5 shapeCasts_S1_S_) (Cert.Quant.scale reducesTo_S3072x768_S_d0_1 h_S_ x1))) := by
  unfold Cert.Quant.quantR Cert.Quant.clip Cert.Quant.quotient Cert.Quant.scale
  unfold val_main_v37 val_main_call7_v4 val_main_call7_v3 val_main_cst_10 val_main_call7_v2 val_main_call7_v1
    val_main_call7_v0 val_main_cst_9 val_main_v36 val_main_v35 val_main_v34 val_main_v33 val_main_v32 val_main_v31
    val_main_v24 val_main_v23 val_main_v22 val_main_cst_5 val_main_cst_6 val_main_v21 val_main_v0 val_main_v3
    val_main_v2 val_main_v1 val_main_cst val_main_cst_0
  rfl

end Cert.ReferenceIdeal.RefValue

end
-- ==== Proof.Claims.lean ====
/-
  The five claims.

  Frames: the kernel program's two frames are the generated ones; the reference's is its generated run with the
  results dropped. The idealization changed nothing that needs a statement.

  Equivalence over the extended reals. Both programs quantize the four parameters and then apply the same two-layer
  perceptron: at batch `b`, token `s`, feature `q` each first result is

    relu ( Σ_j ( Σ_d x[b,s,d] · W1q[j,d] + B1q[j] ) · W2q[q,j] + B2q[q] )

  (the kernel on the activations flattened to 12544 rows and tiled by 448, the reference by two contractions of the
  3-dimensional array: the same sums), and each second result is `(a0 · ws1) · ws2`, one term. What differs is the
  quantizer: the kernel clips `round (a / d)`, the reference clips `v + (round v - v)` with `v = a / d`. Under the
  precondition every parameter entry is a real number and every step `d` is nonzero (the weight steps because the
  weights are not all zero, the bias steps as products of those and of the nonzero activation step), so every
  quotient `v` is a real number and `v + (round v - v) = round v`.
-/
import proofs.«156016_j57432302682876_1_alg».proof.Defs
import proofs.«156016_j57432302682876_1_alg».proof.Proof.Gen.Kernel
import proofs.«156016_j57432302682876_1_alg».proof.Proof.Gen.Kernel.Frame
import proofs.«156016_j57432302682876_1_alg».proof.Proof.Gen.KernelIdeal
import proofs.«156016_j57432302682876_1_alg».proof.Proof.Gen.KernelIdeal.Frame
import proofs.«156016_j57432302682876_1_alg».proof.Proof.Gen.ReferenceIdeal
import proofs.«156016_j57432302682876_1_alg».proof.Proof.Gen.ReferenceIdeal.Run
import proofs.«156016_j57432302682876_1_alg».proof.Proof.Gen.ReferenceIdeal.Read
import proofs.«156016_j57432302682876_1_alg».proof.Proof.Gen.Pre_finite_inputs
import proofs.«156016_j57432302682876_1_alg».proof.Proof.Quant
import proofs.«156016_j57432302682876_1_alg».proof.Proof.PreFacts
import proofs.«156016_j57432302682876_1_alg».proof.Proof.KernelValue
import proofs.«156016_j57432302682876_1_alg».proof.Proof.RefValue

noncomputable section

namespace Cert.Proof.Claims

open Idealize.ShloMosaic Idealize.ShloMosaic.TcCoe Idealize.SL.Sem
open Cert.KernelIdeal.KHost Cert.KernelIdeal.KValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Quantizers

variable (m : (ℓ : Loc Cert.KernelIdeal.nD Cert.KernelIdeal.τ Cert.KernelIdeal.sig) → Buf (Elt Ideal) ℓ)
  (c : Dev Cert.KernelIdeal.nD)
  (D : Cert.PreFacts.Domain (aw1 m c) (ab1 m c) (aw2 m c) (ab2 m c) (asc m c))

include D

theorem a0_ne : a0 m c ValueIdx.ix0 ≠ 0 := D.as_ne

theorem ws1_ne : ws1 m c ValueIdx.ix0 ≠ 0 := Cert.Quant.scale_ne_zero _ _ _ D.m1_ne

theorem ws2_ne : ws2 m c ValueIdx.ix0 ≠ 0 := Cert.Quant.scale_ne_zero _ _ _ D.m2_ne

/-- The reference's four quantized parameters are the kernel's. -/
theorem w1q_eq : Cert.ReferenceIdeal.Read.val_main_v9 (F := Ideal) (aw1 m c) = W1q m c :=
  (Cert.ReferenceIdeal.RefValue.w1q_eq (aw1 m c)).trans
    (Cert.Quant.quantR_eq_quantK _ _ _ D.w1_real (ws1_ne m c D))

theorem b1q_eq : Cert.ReferenceIdeal.Read.val_main_v16 (F := Ideal) (aw1 m c) (ab1 m c) (asc m c) = B1q m c :=
  (Cert.ReferenceIdeal.RefValue.b1q_eq (aw1 m c) (ab1 m c) (asc m c)).trans
    (Cert.Quant.quantR_eq_quantK _ _ _ D.b1_real (Cert.Quant.mulf_ne_zero (ws1_ne m c D) (a0_ne m c D)))

theorem w2q_eq : Cert.ReferenceIdeal.Read.val_main_v30 (F := Ideal) (aw2 m c) = W2q m c :=
  (Cert.ReferenceIdeal.RefValue.w2q_eq (aw2 m c)).trans
    (Cert.Quant.quantR_eq_quantK _ _ _ D.w2_real (ws2_ne m c D))

theorem b2q_eq :
    Cert.ReferenceIdeal.Read.val_main_v37 (F := Ideal) (aw1 m c) (aw2 m c) (ab2 m c) (asc m c) = B2q m c :=
  (Cert.ReferenceIdeal.RefValue.b2q_eq (aw1 m c) (aw2 m c) (ab2 m c) (asc m c)).trans
    (Cert.Quant.quantR_eq_quantK _ _ _ D.b2_real
      (Cert.Quant.mulf_ne_zero (ws2_ne m c D) (Cert.Quant.mulf_ne_zero (a0_ne m c D) (ws1_ne m c D))))

/-- The reference's first result, on the kernel program's arguments, is the kernel's. -/
theorem ref_out_eq :
    Cert.ReferenceIdeal.Read.val_main_v42 (F := Ideal) (ax m c) (aw1 m c) (ab1 m c) (aw2 m c) (ab2 m c) (asc m c) = out m c := by
  funext i
  rw [Cert.ReferenceIdeal.RefValue.out_apply, out_apply, w1q_eq m c D, b1q_eq m c D, w2q_eq m c D, b2q_eq m c D]

end Quantizers

theorem algebraic : Cert.algebraic_KernelIdeal_ReferenceIdeal := by
  intro m ρ m' ρ' hpre hagree
  refine ⟨fun c => out m c, fun c => step m c, Cert.KernelIdeal.KValue.run m ρ, ?_⟩
  refine (θ_run Cert.ReferenceIdeal.defs _ _).mono (fun _ h c => ?_) (Cert.ReferenceIdeal.Value.run (F := Ideal) m' ρ')
  have D : Cert.PreFacts.Domain (aw1 m c) (ab1 m c) (aw2 m c) (ab2 m c) (asc m c) :=
    Cert.PreFacts.domain_of_pre (ax m c) (aw1 m c) (ab1 m c) (aw2 m c) (ab2 m c) (asc m c) (hpre c)
  obtain ⟨g0, g1, g2, g3, g4, g5⟩ := hagree c
  refine ⟨(h c).1.trans ?_, (h c).2.1.trans ?_, (h c).2.2⟩
  · rw [Cert.ReferenceIdeal.Read.val_main_v42_eq, g0, g1, g2, g3, g4, g5]
    exact ref_out_eq m c D
  · rw [g1, g3, g5]
    rfl

end Cert.Proof.Claims

end
-- ==== Proof.lean ====
/-
  The certificate: the kernel program (two quantized linear layers fused in one launch) and its reference compute
  the same two results over the extended reals, wherever the parameters are finite, the two weight tensors are not
  all zero and the activation step is not zero. The five claims are proved in Proof/Claims.lean.
-/
import proofs.«156016_j57432302682876_1_alg».proof.Defs
import proofs.«156016_j57432302682876_1_alg».proof.Proof.Gen.Kernel
import proofs.«156016_j57432302682876_1_alg».proof.Proof.Gen.KernelIdeal
import proofs.«156016_j57432302682876_1_alg».proof.Proof.Gen.ReferenceIdeal
import proofs.«156016_j57432302682876_1_alg».proof.Proof.Gen.Pre_finite_inputs
import proofs.«156016_j57432302682876_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
